-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64 .f32) (main_arg5 : FVec F S64x16 .f32) (main_arg6 : FVec F S16 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8192x8192 .f32) (main_arg1 : FVec F S8192x8192 .f32) (main_arg2 : FVec F S8192x32 .f32) (main_arg3 : FVec F S32x64 .f32) (main_arg4 : FVec F S64 .f32) (main_arg5 : FVec F S64x16 .f32) (main_arg6 : FVec F S16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S8192x64 : Shape := ⟨2, ![8192, 64]⟩
abbrev S128x8192 : Shape := ⟨2, ![128, 8192]⟩
abbrev S128x64 : Shape := ⟨2, ![128, 64]⟩
abbrev S128x32 : Shape := ⟨2, ![128, 32]⟩
abbrev S1x64 : Shape := ⟨2, ![1, 64]⟩
abbrev S8192x16 : Shape := ⟨2, ![8192, 16]⟩
abbrev S128x16 : Shape := ⟨2, ![128, 16]⟩
abbrev S1x16 : Shape := ⟨2, ![1, 16]⟩

abbrev nBuf : Space → Nat
  | .hbm => 9
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S32x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S8192x64, .f32⟩
  | .hbm, ⟨8, _⟩ => ⟨S8192x16, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S8192x32, .f32⟩
  | .local _ .vmem, ⟨5, _⟩ => ⟨S32x64, .f32⟩
  | .local _ .vmem, ⟨6, _⟩ => ⟨S64, .f32⟩
  | .local _ .vmem, ⟨7, _⟩ => ⟨S128x64, .f32⟩
  | .local _ .vmem, ⟨8, _⟩ => ⟨S128x64, .f32⟩
  | .local _ .vmem, ⟨9, _⟩ => ⟨S128x8192, .f32⟩
  | .local _ .vmem, ⟨10, _⟩ => ⟨S128x8192, .f32⟩
  | .local _ .vmem, ⟨11, _⟩ => ⟨S128x8192, .f32⟩
  | .local _ .vmem, ⟨12, _⟩ => ⟨S128x8192, .f32⟩
  | .local _ .vmem, ⟨13, _⟩ => ⟨S8192x64, .f32⟩
  | .local _ .vmem, ⟨14, _⟩ => ⟨S64x16, .f32⟩
  | .local _ .vmem, ⟨15, _⟩ => ⟨S16, .f32⟩
  | .local _ .vmem, ⟨16, _⟩ => ⟨S128x16, .f32⟩
  | .local _ .vmem, ⟨17, _⟩ => ⟨S128x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S128x8192_S128x8192_0_0 : ∀ a, (![0, 0] : Fin 2 → Nat) a + S128x8192.size a ≤ S128x8192.size a
  h_S128x8192 : 0 < S128x8192.numel
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S128x64 : S1x64.Broadcasts S128x64
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  dot_S128x8192_S8192x32_S128x32_1_0_0_1_n_n_wf : DotDims.WF S128x8192 S8192x32 S128x32 [1] [0] [0] [1] [] []
  dot_S128x32_S32x64_S128x64_1_0_0_1_n_n_wf : DotDims.WF S128x32 S32x64 S128x64 [1] [0] [0] [1] [] []
  dot_S128x8192_S8192x64_S128x64_1_0_0_1_n_n_wf : DotDims.WF S128x8192 S8192x64 S128x64 [1] [0] [0] [1] [] []
  dot_S128x64_S64x16_S128x16_1_0_0_1_n_n_wf : DotDims.WF S128x64 S64x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .f32 = 32 ∨ (Rect.block (s := S8192x32) S8192x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S8192x64.size a
  hwx0_5 : ∀ i : grid0.Coords, EltTy.bits .f32 = 32 ∨ (Rect.block (s := S8192x64) S128x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .f32 = 32 ∨ (Rect.block (s := S8192x8192) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S8192x8192.size a
  hwx1_1 : ∀ i : grid1.Coords, EltTy.bits .f32 = 32 ∨ (Rect.block (s := S8192x8192) S128x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x16.size a ≤ S8192x16.size a
  hwx1_5 : ∀ i : grid1.Coords, EltTy.bits .f32 = 32 ∨ (Rect.block (s := S8192x16) S128x16.size (cc1_transform_5 i) (hinb1_5 i)).WholeWords (EltTy.packing .f32)

variable [Facts₀]

def dot_S128x8192_S8192x32_S128x32_1_0_0_1_n_n : DotDims S128x8192 S8192x32 S128x32 where
  lhsContracting := [1]
  rhsContracting := [0]
  lhsNonContracting := [0]
  rhsNonContracting := [1]
  lhsBatch := []
  rhsBatch := []
  wf := dot_S128x8192_S8192x32_S128x32_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S8192x64 : Shape := ⟨2, ![8192, 64]⟩
abbrev S1x64 : Shape := ⟨2, ![1, 64]⟩
abbrev S_ : Shape := ⟨0, ![]⟩
abbrev S8192x16 : Shape := ⟨2, ![8192, 16]⟩
abbrev S1x16 : Shape := ⟨2, ![1, 16]⟩

abbrev nBuf : Space → Nat
  | .hbm => 41
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S32x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S8192x32, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x32, .f32⟩
  | .hbm, ⟨16, _⟩ => ⟨S8192x64, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x64, .f32⟩
  | .hbm, ⟨33, _⟩ => ⟨S8192x16, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call2_cst : Ref sig .tc := ⟨.hbm, 29, rfl⟩
abbrev main_call2_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call3_cst : Ref sig .tc := ⟨.hbm, 37, rfl⟩
abbrev main_call3_v0 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  dot_S8192x8192_S8192x32_S8192x32_1_0_0_1_n_n_wf : DotDims.WF S8192x8192 S8192x32 S8192x32 [1] [0] [0] [1] [] []
  dot_S8192x32_S32x64_S8192x64_1_0_0_1_n_n_wf : DotDims.WF S8192x32 S32x64 S8192x64 [1] [0] [0] [1] [] []
  dot_S8192x8192_S8192x64_S8192x64_1_0_0_1_n_n_wf : DotDims.WF S8192x8192 S8192x64 S8192x64 [1] [0] [0] [1] [] []
  dot_S8192x64_S64x16_S8192x16_1_0_0_1_n_n_wf : DotDims.WF S8192x64 S64x16 S8192x16 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibMatmulCoords.lean ====
/-
  A matrix product read by coordinates.

  For dimension numbers `d` between an `a × n` and an `n × b` matrix that contract the first operand's columns with
  the second's rows, keep the first's rows and the second's columns, and have no batch axis (`Plain d`), the sum over
  the contraction's positions of the operands' products at result index `(p, q)` is the textbook
  `∑ i < n, l (p, i) · r (i, q)` (`sum_apply`). At the ideal values both a device matrix product into the zero
  accumulator and a host `dot_general` are that sum (`matmul_zero_apply`, `dotGeneral_apply`), whatever the float formats
  of the operands.
-/
import proofs.«137351_j70188355551726_1_alg».proof.Proof.LibContraction

noncomputable section

open scoped BigOperators

namespace Cert.Lib.MatmulCoords

open Idealize.ShloMosaic Idealize.ShloMosaic.ValueIdx Cert.Lib.Contraction

variable {a n b : Nat}

/-- Rows times columns: the first operand's axis 1 contracted with the second's axis 0, the free axes in order, no
    batch axis. -/
structure Plain (d : DotDims ⟨2, ![a, n]⟩ ⟨2, ![n, b]⟩ ⟨2, ![a, b]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

variable (d : DotDims ⟨2, ![a, n]⟩ ⟨2, ![n, b]⟩ ⟨2, ![a, b]⟩)

/-- At the position the number `i` names, the first operand is read at `(p, i)`. -/
theorem lhsIdx_eq (h : Plain d) (p : Fin a) (q : Fin b) (i : Fin n) :
    d.lhsIdx (ix2 p q) ((contrFin d h.lc n rfl).symm i) = ix2 p i :=
  funext fun ax => Fin.ext (by
    match ax with
    | ⟨0, _⟩ => exact lhs_free d h.lb h.ln (ix2 p q) _ Nat.zero_lt_two
    | ⟨1, _⟩ => exact lhs_contracted d h.lc n rfl (ix2 p q) i)

/-- … and the second at `(i, q)`. -/
theorem rhsIdx_eq (h : Plain d) (p : Fin a) (q : Fin b) (i : Fin n) :
    d.rhsIdx (ix2 p q) ((contrFin d h.lc n rfl).symm i) = ix2 i q :=
  funext fun ax => Fin.ext (by
    match ax with
    | ⟨0, _⟩ => exact rhs_contracted d h.lc h.rc n rfl (ix2 p q) i
    | ⟨1, _⟩ => exact rhs_free d h.lb h.rb h.ln h.rn (ix2 p q) _ Nat.one_lt_two)

/-- The contraction's sum at `(p, q)` is `∑ i < n, l (p, i) · r (i, q)`. -/
theorem sum_apply (h : Plain d) (l : (⟨2, ![a, n]⟩ : Shape).Idx → EReal) (r : (⟨2, ![n, b]⟩ : Shape).Idx → EReal) (p : Fin a) (q : Fin b) :
    ∑ k : d.contr.Idx, l (d.lhsIdx (ix2 p q) k) * r (d.rhsIdx (ix2 p q) k) = ∑ i : Fin n, l (ix2 p i) * r (ix2 i q) := by
  rw [sum_contr d h.lc n rfl]
  exact Finset.sum_congr rfl fun i _ => by rw [lhsIdx_eq d h p q i, rhsIdx_eq d h p q i]

/-- A device matrix product into the zero accumulator, at the ideal values, read at `(p, q)`. -/
theorem matmul_zero_apply (h : Plain d) {φ₁ φ₂ : FTy} (prec : Option ContractPrecision) (l : FVec Ideal ⟨2, ![a, n]⟩ φ₁)
    (r : FVec Ideal ⟨2, ![n, b]⟩ φ₂) (p : Fin a) (q : Fin b) :
    FloatOps.matmul d prec l r (constant ⟨2, ![a, b]⟩ .f32 0x00000000#32) (ix2 p q) = ∑ i : Fin n, l (ix2 p i) * r (ix2 i q) :=
  (Ideal.matmul_constant_zero_apply d prec l r (ix2 p q)).trans (sum_apply d h l r p q)

/-- A host `dot_general`, at the ideal values, read at `(p, q)`. -/
theorem dotGeneral_apply (h : Plain d) {φ₁ φ₂ : FTy} (prec : Option ContractPrecision) (sched : HostSchedule) (l : FVec Ideal ⟨2, ![a, n]⟩ φ₁)
    (r : FVec Ideal ⟨2, ![n, b]⟩ φ₂) (p : Fin a) (q : Fin b) :
    FloatOps.dotGeneral d prec sched l r (ix2 p q) = ∑ i : Fin n, l (ix2 p i) * r (ix2 i q) :=
  (Ideal.dotGeneral_apply d prec sched l r (ix2 p q)).trans (sum_apply d h l r p q)

end Cert.Lib.MatmulCoords

end
-- ==== Proof.GcnLayer.lean ====
/-
  One graph-convolution layer with two adjacency matrices and shared weights, as a function read index by index.

  For adjacency rows `A : R × N`, features `X : N × I`, weights `W : I × O` and a bias `b : O`, one BRANCH at row `p` and
  column `q` is `max (∑ k < I, (∑ j < N, A (p, j) · X (j, k)) · W (k, q) + b q) 0`: aggregate over the neighbours, apply the
  linear map, add the bias, rectify. The LAYER is the sum of the branches of the two adjacency matrices. Nothing here is
  rounded and no sum is regrouped: a branch is a property of row `p` of `A` alone (`branch_rows`), which is why a
  row block of the layer is the layer of the row block.

  Two programs' texts are read as this function, at the ideal values: the host's — two `dot_general`s, the bias
  broadcast through a `1 × O` row, a `maximum` with a broadcast scalar zero (`host_branch_apply`) — and the device's — two
  matrix products into zero accumulators on operands whose change of float format is the identity at the ideal
  values, the bias shape-cast to a row and broadcast down the rows, a `maximumf` with a splat zero
  (`device_branch_apply`).
-/
import proofs.«137351_j70188355551726_1_alg».proof.Proof.LibMatmulCoords
import Idealize.ShloMosaic.Lib.ValueLayout

noncomputable section

open scoped BigOperators

namespace Cert.Gcn

open Idealize.ShloMosaic Idealize.ShloMosaic.ValueIdx Cert.Lib.MatmulCoords

variable {R N I O : Nat}

/-- One branch at a row and a column: aggregate, map, add the bias, rectify. -/
def branch (A : (⟨2, ![R, N]⟩ : Shape).Idx → EReal) (X : (⟨2, ![N, I]⟩ : Shape).Idx → EReal)
    (W : (⟨2, ![I, O]⟩ : Shape).Idx → EReal) (b : (⟨1, ![O]⟩ : Shape).Idx → EReal) (p : Fin R) (q : Fin O) : EReal :=
  max ((∑ k : Fin I, (∑ j : Fin N, A (ix2 p j) * X (ix2 j k)) * W (ix2 k q)) + b (ix1 q)) 0

/-- The layer: the two adjacency matrices' branches added. -/
def layer (A₁ A₂ : (⟨2, ![R, N]⟩ : Shape).Idx → EReal) (X : (⟨2, ![N, I]⟩ : Shape).Idx → EReal)
    (W : (⟨2, ![I, O]⟩ : Shape).Idx → EReal) (b : (⟨1, ![O]⟩ : Shape).Idx → EReal) : (⟨2, ![R, O]⟩ : Shape).Idx → EReal :=
  fun y => branch A₁ X W b (y 0) (y 1) + branch A₂ X W b (y 0) (y 1)

theorem layer_apply (A₁ A₂ : (⟨2, ![R, N]⟩ : Shape).Idx → EReal) (X : (⟨2, ![N, I]⟩ : Shape).Idx → EReal)
    (W : (⟨2, ![I, O]⟩ : Shape).Idx → EReal) (b : (⟨1, ![O]⟩ : Shape).Idx → EReal) (p : Fin R) (q : Fin O) :
    layer A₁ A₂ X W b (ix2 p q) = branch A₁ X W b p q + branch A₂ X W b p q := rfl

/-- A branch at row `p` reads only row `p` of the adjacency matrix: two matrices (of any heights) that agree on that
    row have the same branch there. -/
theorem branch_rows {R' : Nat} (A : (⟨2, ![R, N]⟩ : Shape).Idx → EReal) (A' : (⟨2, ![R', N]⟩ : Shape).Idx → EReal)
    (X : (⟨2, ![N, I]⟩ : Shape).Idx → EReal) (W : (⟨2, ![I, O]⟩ : Shape).Idx → EReal) (b : (⟨1, ![O]⟩ : Shape).Idx → EReal)
    (p : Fin R) (p' : Fin R') (hrow : ∀ j : Fin N, A (ix2 p j) = A' (ix2 p' j)) (q : Fin O) :
    branch A X W b p q = branch A' X W b p' q := by
  unfold branch
  simp only [hrow]

/-! ## The host's text -/

/-- A bias broadcast to a `1 × O` row and then down `R` rows reads, at `(p, q)`, the bias at `q`. -/
theorem host_bias_apply (hb1 : (⟨1, ![O]⟩ : Shape).BroadcastsInDim ⟨2, ![1, O]⟩ (![1] : Fin 1 → Fin 2))
    (hb2 : (⟨2, ![1, O]⟩ : Shape).BroadcastsInDim ⟨2, ![R, O]⟩ (![0, 1] : Fin 2 → Fin 2))
    (b : (⟨1, ![O]⟩ : Shape).Idx → EReal) (p : Fin R) (q : Fin O) :
    broadcastInDim ⟨2, ![R, O]⟩ ![0, 1] hb2 (broadcastInDim ⟨2, ![1, O]⟩ ![1] hb1 b) (ix2 p q) = b (ix1 q) := by
  refine (broadcastInDim_apply _ hb2 _ (ix2 p q) (ix2 (0 : Fin 1) q) fun ax => ?_).trans
    (broadcastInDim_apply _ hb1 b (ix2 (0 : Fin 1) q) (ix1 q) fun ax => ?_)
  · match ax with
    | ⟨0, _⟩ => show (0 : Nat) = if (1 : Nat) = 1 then 0 else p.val; rw [if_pos rfl]
    | ⟨1, _⟩ =>
      show q.val = if O = 1 then 0 else q.val
      split
      · have := q.isLt; omega
      · rfl
  · match ax with
    | ⟨0, _⟩ =>
      show q.val = if O = 1 then 0 else q.val
      split
      · have := q.isLt; omega
      · rfl

/-- The scalar zero broadcast to every index is the extended real `0`. -/
theorem host_zero_apply (hb0 : (⟨0, ![]⟩ : Shape).BroadcastsInDim ⟨2, ![R, O]⟩ (![] : Fin 0 → Fin 2)) (y : (⟨2, ![R, O]⟩ : Shape).Idx) :
    broadcastInDim ⟨2, ![R, O]⟩ ![] hb0 (constant (F := Ideal) ⟨0, ![]⟩ .f32 0x00000000#32) y = 0 :=
  (broadcastInDim_apply _ hb0 _ y ix0 fun ax => ax.elim0).trans Ideal.ofBits_zero_f32

/-- The host's branch — `maximum (dot_general (dot_general A X) W + broadcast b) (broadcast 0)` — read at `(p, q)`. -/
theorem host_branch_apply (d₁ : DotDims ⟨2, ![R, N]⟩ ⟨2, ![N, I]⟩ ⟨2, ![R, I]⟩) (h₁ : Plain d₁)
    (d₂ : DotDims ⟨2, ![R, I]⟩ ⟨2, ![I, O]⟩ ⟨2, ![R, O]⟩) (h₂ : Plain d₂)
    (hb1 : (⟨1, ![O]⟩ : Shape).BroadcastsInDim ⟨2, ![1, O]⟩ (![1] : Fin 1 → Fin 2))
    (hb2 : (⟨2, ![1, O]⟩ : Shape).BroadcastsInDim ⟨2, ![R, O]⟩ (![0, 1] : Fin 2 → Fin 2))
    (hb0 : (⟨0, ![]⟩ : Shape).BroadcastsInDim ⟨2, ![R, O]⟩ (![] : Fin 0 → Fin 2))
    (A : FVec Ideal ⟨2, ![R, N]⟩ .f32) (X : FVec Ideal ⟨2, ![N, I]⟩ .f32) (W : FVec Ideal ⟨2, ![I, O]⟩ .f32)
    (b : FVec Ideal ⟨1, ![O]⟩ .f32) (p : Fin R) (q : Fin O) :
    maximumf (addf (Host.dotGeneral d₂ none (Host.dotGeneral d₁ none A X) W)
        (broadcastInDim ⟨2, ![R, O]⟩ ![0, 1] hb2 (broadcastInDim ⟨2, ![1, O]⟩ ![1] hb1 b)))
      (broadcastInDim ⟨2, ![R, O]⟩ ![] hb0 (constant (F := Ideal) ⟨0, ![]⟩ .f32 0x00000000#32)) (ix2 p q)
      = branch A X W b p q := by
  have e1 : Host.dotGeneral d₂ none (Host.dotGeneral d₁ none A X) W (ix2 p q)
      = ∑ k : Fin I, (∑ j : Fin N, A (ix2 p j) * X (ix2 j k)) * W (ix2 k q) :=
    (dotGeneral_apply d₂ h₂ none .single (Host.dotGeneral d₁ none A X) W p q).trans
      (Finset.sum_congr rfl fun k _ => congrArg (· * W (ix2 k q)) (dotGeneral_apply d₁ h₁ none .single A X p k))
  show max (Host.dotGeneral d₂ none (Host.dotGeneral d₁ none A X) W (ix2 p q)
      + broadcastInDim ⟨2, ![R, O]⟩ ![0, 1] hb2 (broadcastInDim ⟨2, ![1, O]⟩ ![1] hb1 b) (ix2 p q))
    (broadcastInDim ⟨2, ![R, O]⟩ ![] hb0 (constant (F := Ideal) ⟨0, ![]⟩ .f32 0x00000000#32) (ix2 p q)) = _
  rw [e1, host_bias_apply hb1 hb2 b p q, host_zero_apply hb0 (ix2 p q)]
  rfl

/-! ## The device's text -/

/-- A bias shape-cast to a `1 × O` row and broadcast down `R` rows reads, at `(p, q)`, the bias at `q`. -/
theorem device_bias_apply (hsc : (⟨1, ![O]⟩ : Shape).ShapeCasts ⟨2, ![1, O]⟩)
    (hbr : (⟨2, ![1, O]⟩ : Shape).Broadcasts ⟨2, ![R, O]⟩) (b : (⟨1, ![O]⟩ : Shape).Idx → EReal) (p : Fin R) (q : Fin O) :
    broadcastTo ⟨2, ![R, O]⟩ (shapeCast ⟨2, ![1, O]⟩ b hsc) hbr (ix2 p q) = b (ix1 q) :=
  (broadcastTo_1b_ab_apply _ hbr p q).trans (shapeCast_a_1a_apply b hsc 0 q)

/-- The device's branch — `maximumf (matmul (truncf (matmul (truncf A) (truncf X) 0)) (truncf W) 0 + broadcast (shape_cast b))
    (splat 0)`, the operands already through their change of format — read at `(p, q)`. -/
theorem device_branch_apply (d₁ : DotDims ⟨2, ![R, N]⟩ ⟨2, ![N, I]⟩ ⟨2, ![R, I]⟩) (h₁ : Plain d₁)
    (d₂ : DotDims ⟨2, ![R, I]⟩ ⟨2, ![I, O]⟩ ⟨2, ![R, O]⟩) (h₂ : Plain d₂)
    (hsc : (⟨1, ![O]⟩ : Shape).ShapeCasts ⟨2, ![1, O]⟩) (hbr : (⟨2, ![1, O]⟩ : Shape).Broadcasts ⟨2, ![R, O]⟩)
    (hlt : FTy.bf16.bits < FTy.f32.bits)
    (A : FVec Ideal ⟨2, ![R, N]⟩ .bf16) (X : FVec Ideal ⟨2, ![N, I]⟩ .bf16) (W : FVec Ideal ⟨2, ![I, O]⟩ .bf16)
    (b : FVec Ideal ⟨1, ![O]⟩ .f32) (p : Fin R) (q : Fin O) :
    maximumf (addf (matmul d₂ none (truncf .bf16 (matmul d₁ none A X (constant ⟨2, ![R, I]⟩ .f32 0x00000000#32)) hlt) W
          (constant ⟨2, ![R, O]⟩ .f32 0x00000000#32))
        (broadcastTo ⟨2, ![R, O]⟩ (shapeCast ⟨2, ![1, O]⟩ b hsc) hbr))
      (broadcast ⟨2, ![R, O]⟩ (Scalar.ofBits (F := Ideal) .f32 0x00000000#32)) (ix2 p q)
      = branch A X W b p q := by
  have e1 : matmul d₂ none (truncf .bf16 (matmul d₁ none A X (constant ⟨2, ![R, I]⟩ .f32 0x00000000#32)) hlt) W
        (constant ⟨2, ![R, O]⟩ .f32 0x00000000#32) (ix2 p q)
      = ∑ k : Fin I, (∑ j : Fin N, A (ix2 p j) * X (ix2 j k)) * W (ix2 k q) :=
    (matmul_zero_apply d₂ h₂ none (truncf .bf16 (matmul d₁ none A X (constant ⟨2, ![R, I]⟩ .f32 0x00000000#32)) hlt) W p q).trans
      (Finset.sum_congr rfl fun k _ => congrArg (· * W (ix2 k q)) (matmul_zero_apply d₁ h₁ none A X p k))
  show max (matmul d₂ none (truncf .bf16 (matmul d₁ none A X (constant ⟨2, ![R, I]⟩ .f32 0x00000000#32)) hlt) W
        (constant ⟨2, ![R, O]⟩ .f32 0x00000000#32) (ix2 p q)
      + broadcastTo ⟨2, ![R, O]⟩ (shapeCast ⟨2, ![1, O]⟩ b hsc) hbr (ix2 p q))
    (Ideal.ofBits .f32 0x00000000#32) = _
  rw [e1, device_bias_apply hsc hbr b p q, Ideal.ofBits_zero_f32]
  rfl

end Cert.Gcn

end
-- ==== Proof.LayerOneBlocks.lean ====
/-
  The first layer's kernel region, read as a value.

  The region runs over 64 grid points. Point `t` stages rows `128 t … 128 t + 127` of the two adjacency matrices (all
  8192 columns), the whole feature matrix, the whole weight matrix and the whole bias, and writes back rows
  `128 t … 128 t + 127` of the output. What the body stores at `(p, q)` of its block is the sum of the two branches of
  `Cert.Gcn` on the staged blocks (`payload_apply`); a branch at a row reads that row of the adjacency matrix only, so
  on the staged row block it is the branch of the whole matrix at row `128 t + p` (`Gcn.branch_rows`). Hence what
  point `t` writes back is block `t` of ONE function of the arrays the region finds, `Gcn.layer` (`flushed_eq`); the 64
  blocks tile the output (row `r` lies in block `r / 128`: `cover`), so the output array after the region is that
  function (`final`), for whatever contents `V` the region is entered with.
-/
import proofs.«137351_j70188355551726_1_alg».proof.Proof.Gen.KernelIdeal.Frame
import proofs.«137351_j70188355551726_1_alg».proof.Proof.GcnLayer
import Idealize.ShloMosaic.Lib.Pipeline.Value

set_option maxRecDepth 16384

noncomputable section

open scoped BigOperators

namespace Cert.KernelIdeal.LayerOne

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn Cert.Lib.MatmulCoords

/-! ## The body's stored value at an index -/

/-- Both matrix products of the body are rows times columns. -/
theorem plain_aggregate : Plain (a := 128) (n := 8192) (b := 32) dot_S128x8192_S8192x32_S128x32_1_0_0_1_n_n :=
  ⟨rfl, rfl, rfl, rfl, rfl, rfl⟩
theorem plain_linear : Plain (a := 128) (n := 32) (b := 64) dot_S128x32_S32x64_S128x64_1_0_0_1_n_n :=
  ⟨rfl, rfl, rfl, rfl, rfl, rfl⟩

/-- What the body stores at `(p, q)`: the two branches on the loaded blocks, added. The changes of float format are the
    identity at the ideal values. -/
theorem payload_apply (x0 x1 : FVec Ideal S128x8192 .f32) (x2 : FVec Ideal S8192x32 .f32) (x3 : FVec Ideal S32x64 .f32)
    (x4 : FVec Ideal S64 .f32) (p : Fin 128) (q : Fin 64) :
    k0_pay1 (F := Ideal) x0 x1 x2 x3 x4 (ix2 p q) = branch x0 x2 x3 x4 p q + branch x1 x2 x3 x4 p q := by
  unfold k0_pay1
  exact congrArg₂ (· + ·)
    (device_branch_apply (R := 128) (N := 8192) (I := 32) (O := 64) dot_S128x8192_S8192x32_S128x32_1_0_0_1_n_n plain_aggregate
      dot_S128x32_S32x64_S128x64_1_0_0_1_n_n plain_linear shapeCasts_S64_S1x64 broadcasts_S1x64_S128x64 bitsLt_bf16_f32
      (truncf .bf16 x0 bitsLt_bf16_f32) (truncf .bf16 x2 bitsLt_bf16_f32) (truncf .bf16 x3 bitsLt_bf16_f32) x4 p q)
    (device_branch_apply (R := 128) (N := 8192) (I := 32) (O := 64) dot_S128x8192_S8192x32_S128x32_1_0_0_1_n_n plain_aggregate
      dot_S128x32_S32x64_S128x64_1_0_0_1_n_n plain_linear shapeCasts_S64_S1x64 broadcasts_S1x64_S128x64 bitsLt_bf16_f32
      (truncf .bf16 x1 bitsLt_bf16_f32) (truncf .bf16 x2 bitsLt_bf16_f32) (truncf .bf16 x3 bitsLt_bf16_f32) x4 p q)

/-! ## The windows' blocks -/

variable (V : (c : Dev nD) → (b : Ref sig .tc) → Buf (Elt Ideal) ((c : Thread nD τ).loc b))

/-- The arrays as the region finds them, and the blocks staged at point `t`, each at its literal type. -/
abbrev adj1 (c : Dev nD) : FVec Ideal S8192x8192 .f32 := V c main_arg0
abbrev adj2 (c : Dev nD) : FVec Ideal S8192x8192 .f32 := V c main_arg1
abbrev feat (c : Dev nD) : FVec Ideal S8192x32 .f32 := V c main_arg2
abbrev wgt (c : Dev nD) : FVec Ideal S32x64 .f32 := V c main_arg3
abbrev bias (c : Dev nD) : FVec Ideal S64 .f32 := V c main_arg4
abbrev adj1Blk (c : Dev nD) (t : Fin cfg0.N) : FVec Ideal S128x8192 .f32 := iblk0 V c 0 t
abbrev adj2Blk (c : Dev nD) (t : Fin cfg0.N) : FVec Ideal S128x8192 .f32 := iblk0 V c 1 t
abbrev featBlk (c : Dev nD) (t : Fin cfg0.N) : FVec Ideal S8192x32 .f32 := iblk0 V c 2 t
abbrev wgtBlk (c : Dev nD) (t : Fin cfg0.N) : FVec Ideal S32x64 .f32 := iblk0 V c 3 t
abbrev biasBlk (c : Dev nD) (t : Fin cfg0.N) : FVec Ideal S64 .f32 := iblk0 V c 4 t

/-- The printed index maps over the grid: the adjacency and output windows move one block of rows per point, the
    other windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `128 t + p` of the array. -/
def row (t : Fin cfg0.N) (p : Fin 128) : Fin 8192 :=
  ⟨t.val * 128 + p.val, by have ht : t.val < 64 := t.isLt; have := p.isLt; omega⟩

theorem adj1Blk_apply (c : Dev nD) (t : Fin cfg0.N) (p : Fin 128) (j : Fin 8192) :
    adj1Blk V c t (ix2 p j) = adj1 V c (ix2 (row t p) j) := by
  obtain ⟨e0, e1, -⟩ := idx_facts t
  show V c main_arg0 (((cfg0.win 0).blk t).view.emb (ix2 p j)) = V c main_arg0 (ix2 (row t p) j)
  refine congrArg (V c main_arg0) (funext fun a => Fin.ext ?_)
  match a with
  | ⟨0, _⟩ => show win0_0.index t (0 : Fin 2) * 128 + 1 * p.val = t.val * 128 + p.val; omega
  | ⟨1, _⟩ => show win0_0.index t (1 : Fin 2) * 8192 + 1 * j.val = j.val; omega

theorem adj2Blk_apply (c : Dev nD) (t : Fin cfg0.N) (p : Fin 128) (j : Fin 8192) :
    adj2Blk V c t (ix2 p j) = adj2 V c (ix2 (row t p) j) := by
  obtain ⟨-, -, e0, e1, -⟩ := idx_facts t
  show V c main_arg1 (((cfg0.win 1).blk t).view.emb (ix2 p j)) = V c main_arg1 (ix2 (row t p) j)
  refine congrArg (V c main_arg1) (funext fun a => Fin.ext ?_)
  match a with
  | ⟨0, _⟩ => show win0_1.index t (0 : Fin 2) * 128 + 1 * p.val = t.val * 128 + p.val; omega
  | ⟨1, _⟩ => show win0_1.index t (1 : Fin 2) * 8192 + 1 * j.val = j.val; omega

/-- The feature, weight and bias windows stage their whole arrays at every point. -/
theorem featBlk_eq (c : Dev nD) (t : Fin cfg0.N) : featBlk V c t = feat V c := by
  obtain ⟨-, -, -, -, e0, e1, -⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 8192 + 1 * (y 0).val = (y 0).val; omega
  | ⟨1, _⟩ => show win0_2.index t (1 : Fin 2) * 32 + 1 * (y 1).val = (y 1).val; omega

theorem wgtBlk_eq (c : Dev nD) (t : Fin cfg0.N) : wgtBlk V c t = wgt V c := by
  obtain ⟨-, -, -, -, -, -, e0, e1, -⟩ := idx_facts t
  funext y
  show V c main_arg3 (((cfg0.win 3).blk t).view.emb y) = V c main_arg3 y
  refine congrArg (V c main_arg3) (funext fun a => Fin.ext ?_)
  match a with
  | ⟨0, _⟩ => show win0_3.index t (0 : Fin 2) * 32 + 1 * (y 0).val = (y 0).val; omega
  | ⟨1, _⟩ => show win0_3.index t (1 : Fin 2) * 64 + 1 * (y 1).val = (y 1).val; omega

theorem biasBlk_eq (c : Dev nD) (t : Fin cfg0.N) : biasBlk V c t = bias V c := by
  obtain ⟨-, -, -, -, -, -, -, -, e0, -⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 1) * 64 + 1 * (y 0).val = (y 0).val; omega

/-! ## What a point writes back, the cover, the array after the region -/

theorem hz2 : (![0, 0] : Fin 2 → Nat) = fun _ => 0 := funext fun a => by fin_cases a <;> rfl
theorem hz1 : (![0] : Fin 1 → Nat) = fun _ => 0 := funext fun a => by fin_cases a; rfl

/-- The layer of the arrays the region finds. -/
abbrev G (c : Dev nD) : FVec Ideal S8192x64 .f32 := layer (adj1 V c) (adj2 V c) (feat V c) (wgt V c) (bias V c)

/-- The output block's `(p, q)` lies at `(128 t + p, q)` of the output array. -/
theorem out_emb (t : Fin cfg0.N) (p : Fin 128) (q : Fin 64) :
    ((cfg0.win 5).blk t).view.emb (ix2 p q) = ix2 (row t p) q := by
  obtain ⟨-, -, -, -, -, -, -, -, -, e0, e1⟩ := idx_facts t
  funext a; apply Fin.ext
  match a with
  | ⟨0, _⟩ => show win0_5.index t (0 : Fin 2) * 128 + 1 * p.val = t.val * 128 + p.val; omega
  | ⟨1, _⟩ => show win0_5.index t (1 : Fin 2) * 64 + 1 * q.val = q.val; omega

/-- WHAT POINT `t` WRITES BACK is block `t` of the layer of the arrays the region finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S128x8192) hz2, View.ld_unit_zero (S := S8192x32) hz2,
    View.ld_unit_zero (S := S32x64) hz2, View.ld_unit_zero (S := S64) hz1]
  funext y
  obtain ⟨p, q, rfl⟩ : ∃ (p : Fin 128) (q : Fin 64), y = ix2 p q := ⟨y 0, y 1, eq_ix2 y⟩
  show k0_pay1 (F := Ideal) (adj1Blk V c t) (adj2Blk V c t) (featBlk V c t) (wgtBlk V c t) (biasBlk V c t) (ix2 p q)
    = G V c (((cfg0.win 5).blk t).view.emb (ix2 p q))
  rw [out_emb t p q]
  refine (payload_apply (adj1Blk V c t) (adj2Blk V c t) (featBlk V c t) (wgtBlk V c t) (biasBlk V c t) p q).trans ?_
  rw [featBlk_eq V c t, wgtBlk_eq V c t, biasBlk_eq V c t]
  exact congrArg₂ (· + ·)
    (branch_rows (adj1Blk V c t) (adj1 V c) (feat V c) (wgt V c) (bias V c) p (row t p) (adj1Blk_apply V c t p) q)
    (branch_rows (adj2Blk V c t) (adj2 V c) (feat V c) (wgt V c) (bias V c) p (row t p) (adj2Blk_apply V c t p) q)

/-- An index of the output array is in point `t`'s block iff each coordinate is in the block's range on its axis. -/
theorem mem_blk (t : Fin cfg0.N) (i : S8192x64.Idx) :
    i ∈ ((cfg0.win 5).blk t).view.set ↔ ∀ a : Fin 2, win0_5.index t a * S128x64.size a ≤ (i a).val
      ∧ (i a).val < win0_5.index t a * S128x64.size a + S128x64.size a := by
  show i ∈ ((View.whole main_v0).slice (win0_5.rect t)).set ↔ _
  rw [View.set_slice_whole, Rect.mem_set_unit]
  exact Iff.rfl

/-- Every index of the output array is in some point's block: row `r` in block `r / 128`. -/
theorem cover (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  let t : Fin cfg0.N := ⟨(i 0).val / 128, by show (i 0).val / 128 < 64; omega⟩
  obtain ⟨-, -, -, -, -, -, -, -, -, e0, e1⟩ := idx_facts t
  have ht : t.val = (i 0).val / 128 := rfl
  refine ⟨t, flush0_5 t, ?_⟩
  rw [mem_blk]
  intro a
  match a with
  | ⟨0, _⟩ =>
    show win0_5.index t (0 : Fin 2) * 128 ≤ (i 0).val ∧ (i 0).val < win0_5.index t (0 : Fin 2) * 128 + 128
    omega
  | ⟨1, _⟩ =>
    show win0_5.index t (1 : Fin 2) * 64 ≤ (i 1).val ∧ (i 1).val < win0_5.index t (1 : Fin 2) * 64 + 64
    omega

/-- THE OUTPUT ARRAY after the region is the layer of the arrays the region was entered with. -/
theorem final (c : Dev nD) : (dat0 V c).arrAt 5 cfg0.N = G V c :=
  (dat0 V c).arrAt_eq_of_cover 5 (G V c) (fun t _ => flushed_eq V c t) cover

end Cert.KernelIdeal.LayerOne

end
-- ==== Proof.LayerTwoBlocks.lean ====
/-
  The second layer's kernel region, read as a value.

  The same body at the second layer's sizes: point `t` of 64 stages rows `128 t … 128 t + 127` of the two adjacency
  matrices, the whole `8192 × 64` feature matrix (the first region's output array), the whole `64 × 16` weight matrix
  and the whole bias, and writes back rows `128 t … 128 t + 127` of the `8192 × 16` output. The body's one extra
  operation, a shape cast of the features to their own shape, is the identity. As for the first layer: what point `t`
  writes back is block `t` of `Gcn.layer` of the arrays the region finds (`flushed_eq`), the blocks tile the output
  (`cover`), and the output array after the region is that function (`final`), for whatever contents `V` the region is
  entered with.
-/
import proofs.«137351_j70188355551726_1_alg».proof.Proof.Gen.KernelIdeal.Frame
import proofs.«137351_j70188355551726_1_alg».proof.Proof.GcnLayer
import Idealize.ShloMosaic.Lib.Pipeline.Value

set_option maxRecDepth 16384

noncomputable section

open scoped BigOperators

namespace Cert.KernelIdeal.LayerTwo

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn Cert.Lib.MatmulCoords

/-! ## The body's stored value at an index -/

/-- Both matrix products of the body are rows times columns. -/
theorem plain_aggregate : Plain (a := 128) (n := 8192) (b := 64) dot_S128x8192_S8192x64_S128x64_1_0_0_1_n_n :=
  ⟨rfl, rfl, rfl, rfl, rfl, rfl⟩
theorem plain_linear : Plain (a := 128) (n := 64) (b := 16) dot_S128x64_S64x16_S128x16_1_0_0_1_n_n :=
  ⟨rfl, rfl, rfl, rfl, rfl, rfl⟩

/-- What the body stores at `(p, q)`: the two branches on the loaded blocks, added. The changes of float format are the
    identity at the ideal values, and so is the shape cast of the features to their own shape. -/
theorem payload_apply (x0 x1 : FVec Ideal S128x8192 .f32) (x2 : FVec Ideal S8192x64 .f32) (x3 : FVec Ideal S64x16 .f32)
    (x4 : FVec Ideal S16 .f32) (p : Fin 128) (q : Fin 16) :
    k1_pay1 (F := Ideal) x0 x1 x2 x3 x4 (ix2 p q) = branch x0 x2 x3 x4 p q + branch x1 x2 x3 x4 p q := by
  have e : shapeCast S8192x64 x2 shapeCasts_S8192x64_S8192x64 = x2 := shapeCast_self x2 shapeCasts_S8192x64_S8192x64
  unfold k1_pay1
  refine (congrArg₂ (· + ·)
    (device_branch_apply (R := 128) (N := 8192) (I := 64) (O := 16) dot_S128x8192_S8192x64_S128x64_1_0_0_1_n_n plain_aggregate
      dot_S128x64_S64x16_S128x16_1_0_0_1_n_n plain_linear shapeCasts_S16_S1x16 broadcasts_S1x16_S128x16 bitsLt_bf16_f32
      (truncf .bf16 x0 bitsLt_bf16_f32) (truncf .bf16 (shapeCast S8192x64 x2 shapeCasts_S8192x64_S8192x64) bitsLt_bf16_f32)
      (truncf .bf16 x3 bitsLt_bf16_f32) x4 p q)
    (device_branch_apply (R := 128) (N := 8192) (I := 64) (O := 16) dot_S128x8192_S8192x64_S128x64_1_0_0_1_n_n plain_aggregate
      dot_S128x64_S64x16_S128x16_1_0_0_1_n_n plain_linear shapeCasts_S16_S1x16 broadcasts_S1x16_S128x16 bitsLt_bf16_f32
      (truncf .bf16 x1 bitsLt_bf16_f32) (truncf .bf16 (shapeCast S8192x64 x2 shapeCasts_S8192x64_S8192x64) bitsLt_bf16_f32)
      (truncf .bf16 x3 bitsLt_bf16_f32) x4 p q)).trans ?_
  rw [e]
  rfl

/-! ## The windows' blocks -/

variable (V : (c : Dev nD) → (b : Ref sig .tc) → Buf (Elt Ideal) ((c : Thread nD τ).loc b))

/-- The arrays as the region finds them, and the blocks staged at point `t`, each at its literal type. -/
abbrev adj1 (c : Dev nD) : FVec Ideal S8192x8192 .f32 := V c main_arg0
abbrev adj2 (c : Dev nD) : FVec Ideal S8192x8192 .f32 := V c main_arg1
abbrev feat (c : Dev nD) : FVec Ideal S8192x64 .f32 := V c main_v0
abbrev wgt (c : Dev nD) : FVec Ideal S64x16 .f32 := V c main_arg5
abbrev bias (c : Dev nD) : FVec Ideal S16 .f32 := V c main_arg6
abbrev adj1Blk (c : Dev nD) (t : Fin cfg1.N) : FVec Ideal S128x8192 .f32 := iblk1 V c 0 t
abbrev adj2Blk (c : Dev nD) (t : Fin cfg1.N) : FVec Ideal S128x8192 .f32 := iblk1 V c 1 t
abbrev featBlk (c : Dev nD) (t : Fin cfg1.N) : FVec Ideal S8192x64 .f32 := iblk1 V c 2 t
abbrev wgtBlk (c : Dev nD) (t : Fin cfg1.N) : FVec Ideal S64x16 .f32 := iblk1 V c 3 t
abbrev biasBlk (c : Dev nD) (t : Fin cfg1.N) : FVec Ideal S16 .f32 := iblk1 V c 4 t

/-- The printed index maps over the grid: the adjacency and output windows move one block of rows per point, the
    other windows stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of point `t`'s block is row `128 t + p` of the array. -/
def row (t : Fin cfg1.N) (p : Fin 128) : Fin 8192 :=
  ⟨t.val * 128 + p.val, by have ht : t.val < 64 := t.isLt; have := p.isLt; omega⟩

theorem adj1Blk_apply (c : Dev nD) (t : Fin cfg1.N) (p : Fin 128) (j : Fin 8192) :
    adj1Blk V c t (ix2 p j) = adj1 V c (ix2 (row t p) j) := by
  obtain ⟨e0, e1, -⟩ := idx_facts t
  show V c main_arg0 (((cfg1.win 0).blk t).view.emb (ix2 p j)) = V c main_arg0 (ix2 (row t p) j)
  refine congrArg (V c main_arg0) (funext fun a => Fin.ext ?_)
  match a with
  | ⟨0, _⟩ => show win1_0.index t (0 : Fin 2) * 128 + 1 * p.val = t.val * 128 + p.val; omega
  | ⟨1, _⟩ => show win1_0.index t (1 : Fin 2) * 8192 + 1 * j.val = j.val; omega

theorem adj2Blk_apply (c : Dev nD) (t : Fin cfg1.N) (p : Fin 128) (j : Fin 8192) :
    adj2Blk V c t (ix2 p j) = adj2 V c (ix2 (row t p) j) := by
  obtain ⟨-, -, e0, e1, -⟩ := idx_facts t
  show V c main_arg1 (((cfg1.win 1).blk t).view.emb (ix2 p j)) = V c main_arg1 (ix2 (row t p) j)
  refine congrArg (V c main_arg1) (funext fun a => Fin.ext ?_)
  match a with
  | ⟨0, _⟩ => show win1_1.index t (0 : Fin 2) * 128 + 1 * p.val = t.val * 128 + p.val; omega
  | ⟨1, _⟩ => show win1_1.index t (1 : Fin 2) * 8192 + 1 * j.val = j.val; omega

/-- The feature, weight and bias windows stage their whole arrays at every point. -/
theorem featBlk_eq (c : Dev nD) (t : Fin cfg1.N) : featBlk V c t = feat V c := by
  obtain ⟨-, -, -, -, e0, e1, -⟩ := idx_facts t
  funext y
  show V c main_v0 (((cfg1.win 2).blk t).view.emb y) = V c main_v0 y
  refine congrArg (V c main_v0) (funext fun a => Fin.ext ?_)
  match a with
  | ⟨0, _⟩ => show win1_2.index t (0 : Fin 2) * 8192 + 1 * (y 0).val = (y 0).val; omega
  | ⟨1, _⟩ => show win1_2.index t (1 : Fin 2) * 64 + 1 * (y 1).val = (y 1).val; omega

theorem wgtBlk_eq (c : Dev nD) (t : Fin cfg1.N) : wgtBlk V c t = wgt V c := by
  obtain ⟨-, -, -, -, -, -, e0, e1, -⟩ := idx_facts t
  funext y
  show V c main_arg5 (((cfg1.win 3).blk t).view.emb y) = V c main_arg5 y
  refine congrArg (V c main_arg5) (funext fun a => Fin.ext ?_)
  match a with
  | ⟨0, _⟩ => show win1_3.index t (0 : Fin 2) * 64 + 1 * (y 0).val = (y 0).val; omega
  | ⟨1, _⟩ => show win1_3.index t (1 : Fin 2) * 16 + 1 * (y 1).val = (y 1).val; omega

theorem biasBlk_eq (c : Dev nD) (t : Fin cfg1.N) : biasBlk V c t = bias V c := by
  obtain ⟨-, -, -, -, -, -, -, -, e0, -⟩ := idx_facts t
  funext y
  show V c main_arg6 (((cfg1.win 4).blk t).view.emb y) = V c main_arg6 y
  refine congrArg (V c main_arg6) (funext fun a => Fin.ext ?_)
  match a with
  | ⟨0, _⟩ => show win1_4.index t (0 : Fin 1) * 16 + 1 * (y 0).val = (y 0).val; omega

/-! ## What a point writes back, the cover, the array after the region -/

theorem hz2 : (![0, 0] : Fin 2 → Nat) = fun _ => 0 := funext fun a => by fin_cases a <;> rfl
theorem hz1 : (![0] : Fin 1 → Nat) = fun _ => 0 := funext fun a => by fin_cases a; rfl

/-- The layer of the arrays the region finds. -/
abbrev G (c : Dev nD) : FVec Ideal S8192x16 .f32 := layer (adj1 V c) (adj2 V c) (feat V c) (wgt V c) (bias V c)

/-- The output block's `(p, q)` lies at `(128 t + p, q)` of the output array. -/
theorem out_emb (t : Fin cfg1.N) (p : Fin 128) (q : Fin 16) :
    ((cfg1.win 5).blk t).view.emb (ix2 p q) = ix2 (row t p) q := by
  obtain ⟨-, -, -, -, -, -, -, -, -, e0, e1⟩ := idx_facts t
  funext a; apply Fin.ext
  match a with
  | ⟨0, _⟩ => show win1_5.index t (0 : Fin 2) * 128 + 1 * p.val = t.val * 128 + p.val; omega
  | ⟨1, _⟩ => show win1_5.index t (1 : Fin 2) * 16 + 1 * q.val = q.val; omega

/-- WHAT POINT `t` WRITES BACK is block `t` of the layer of the arrays the region finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S128x8192) hz2, View.ld_unit_zero (S := S8192x64) hz2,
    View.ld_unit_zero (S := S64x16) hz2, View.ld_unit_zero (S := S16) hz1]
  funext y
  obtain ⟨p, q, rfl⟩ : ∃ (p : Fin 128) (q : Fin 16), y = ix2 p q := ⟨y 0, y 1, eq_ix2 y⟩
  show k1_pay1 (F := Ideal) (adj1Blk V c t) (adj2Blk V c t) (featBlk V c t) (wgtBlk V c t) (biasBlk V c t) (ix2 p q)
    = G V c (((cfg1.win 5).blk t).view.emb (ix2 p q))
  rw [out_emb t p q]
  refine (payload_apply (adj1Blk V c t) (adj2Blk V c t) (featBlk V c t) (wgtBlk V c t) (biasBlk V c t) p q).trans ?_
  rw [featBlk_eq V c t, wgtBlk_eq V c t, biasBlk_eq V c t]
  exact congrArg₂ (· + ·)
    (branch_rows (adj1Blk V c t) (adj1 V c) (feat V c) (wgt V c) (bias V c) p (row t p) (adj1Blk_apply V c t p) q)
    (branch_rows (adj2Blk V c t) (adj2 V c) (feat V c) (wgt V c) (bias V c) p (row t p) (adj2Blk_apply V c t p) q)

/-- An index of the output array is in point `t`'s block iff each coordinate is in the block's range on its axis. -/
theorem mem_blk (t : Fin cfg1.N) (i : S8192x16.Idx) :
    i ∈ ((cfg1.win 5).blk t).view.set ↔ ∀ a : Fin 2, win1_5.index t a * S128x16.size a ≤ (i a).val
      ∧ (i a).val < win1_5.index t a * S128x16.size a + S128x16.size a := by
  show i ∈ ((View.whole main_v1).slice (win1_5.rect t)).set ↔ _
  rw [View.set_slice_whole, Rect.mem_set_unit]
  exact Iff.rfl

/-- Every index of the output array is in some point's block: row `r` in block `r / 128`. -/
theorem cover (i : S8192x16.Idx) :
    ∃ t : Fin cfg1.N, (cfg1.win 5).flush t = true ∧ i ∈ ((cfg1.win 5).blk t).view.set := by
  have hi0 : (i 0).val < 8192 := (i 0).isLt
  have hi1 : (i 1).val < 16 := (i 1).isLt
  let t : Fin cfg1.N := ⟨(i 0).val / 128, by show (i 0).val / 128 < 64; omega⟩
  obtain ⟨-, -, -, -, -, -, -, -, -, e0, e1⟩ := idx_facts t
  have ht : t.val = (i 0).val / 128 := rfl
  refine ⟨t, flush1_5 t, ?_⟩
  rw [mem_blk]
  intro a
  match a with
  | ⟨0, _⟩ =>
    show win1_5.index t (0 : Fin 2) * 128 ≤ (i 0).val ∧ (i 0).val < win1_5.index t (0 : Fin 2) * 128 + 128
    omega
  | ⟨1, _⟩ =>
    show win1_5.index t (1 : Fin 2) * 16 ≤ (i 1).val ∧ (i 1).val < win1_5.index t (1 : Fin 2) * 16 + 16
    omega

/-- THE OUTPUT ARRAY after the region is the layer of the arrays the region was entered with. -/
theorem final (c : Dev nD) : (dat1 V c).arrAt 5 cfg1.N = G V c :=
  (dat1 V c).arrAt_eq_of_cover 5 (G V c) (fun t _ => flushed_eq V c t) cover

end Cert.KernelIdeal.LayerTwo

end
-- ==== Proof.KernelValue.lean ====
/-
  The kernel program's result as two layers of `Cert.Gcn`.

  @main is the two kernel regions in sequence. The first is entered with the launch memory; the second with the first's
  output array in the buffer it reads its features from, the adjacency matrices, second weights and second bias still as
  launched (no region writes an argument, and the first region's windows do not touch the second layer's weights and
  bias). Each region's output array after the region is `Gcn.layer` of the arrays it was entered with
  (`LayerOne.final`, `LayerTwo.final`), so the result buffer after the run — the second region's output array — is
  `layer A₁ A₂ (layer A₁ A₂ X W₁ b₁) W₂ b₂` of the launch contents.
-/
import proofs.«137351_j70188355551726_1_alg».proof.Proof.KernelIdealRun
import proofs.«137351_j70188355551726_1_alg».proof.Proof.LayerOneBlocks
import proofs.«137351_j70188355551726_1_alg».proof.Proof.LayerTwoBlocks

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (m : (ℓ : Loc nD τ sig) → Buf (Elt Ideal) ℓ) (ρ : Dev nD → PrngReg)

/-- The argument arrays at launch, each at its literal type. -/
abbrev a0 (c : Dev nD) : FVec Ideal S8192x8192 .f32 := m ((c : Thread nD τ).loc main_arg0)
abbrev a1 (c : Dev nD) : FVec Ideal S8192x8192 .f32 := m ((c : Thread nD τ).loc main_arg1)
abbrev a2 (c : Dev nD) : FVec Ideal S8192x32 .f32 := m ((c : Thread nD τ).loc main_arg2)
abbrev a3 (c : Dev nD) : FVec Ideal S32x64 .f32 := m ((c : Thread nD τ).loc main_arg3)
abbrev a4 (c : Dev nD) : FVec Ideal S64 .f32 := m ((c : Thread nD τ).loc main_arg4)
abbrev a5 (c : Dev nD) : FVec Ideal S64x16 .f32 := m ((c : Thread nD τ).loc main_arg5)
abbrev a6 (c : Dev nD) : FVec Ideal S16 .f32 := m ((c : Thread nD τ).loc main_arg6)

/-- The first layer's features, and the program's result: the second layer of the first. -/
def hidden (c : Dev nD) : FVec Ideal S8192x64 .f32 := layer (a0 m c) (a1 m c) (a2 m c) (a3 m c) (a4 m c)
def result (c : Dev nD) : Buf (Elt Ideal) ((c : Thread nD τ).loc main_v1) :=
  layer (a0 m c) (a1 m c) (hidden m c) (a5 m c) (a6 m c)

/-! ## What the second region is entered with -/

theorem entry_adj1 (c : Dev nD) : LayerTwo.adj1 (V1 m ρ) c = a0 m c :=
  calc V1 m ρ c main_arg0
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl
theorem entry_adj2 (c : Dev nD) : LayerTwo.adj2 (V1 m ρ) c = a1 m c :=
  calc V1 m ρ c main_arg1
    _ = W0 m ρ c (Proc.devRef .tc main_arg1) :=
        (W1_arr m ρ c 1).trans (((dat0 (V0 m ρ) c).arrAt_in 1 rfl _).trans (A_eq0 (V0 m ρ) c 1))
    _ = m ((c : Thread nD τ).loc main_arg1) := rfl
theorem entry_wgt (c : Dev nD) : LayerTwo.wgt (V1 m ρ) c = a5 m c :=
  calc V1 m ρ c main_arg5
    _ = W0 m ρ c (Proc.devRef .tc main_arg5) := W1_of_ne m ρ c main_arg5 (by decide)
    _ = m ((c : Thread nD τ).loc main_arg5) := rfl
theorem entry_bias (c : Dev nD) : LayerTwo.bias (V1 m ρ) c = a6 m c :=
  calc V1 m ρ c main_arg6
    _ = W0 m ρ c (Proc.devRef .tc main_arg6) := W1_of_ne m ρ c main_arg6 (by decide)
    _ = m ((c : Thread nD τ).loc main_arg6) := rfl
/-- Its features are the first region's output array: the first layer of the launch contents. -/
theorem entry_feat (c : Dev nD) : LayerTwo.feat (V1 m ρ) c = hidden m c :=
  (W1_arr m ρ c 5).trans (LayerOne.final (V0 m ρ) c)

/-! ## The result buffer after the run -/

theorem result_eq (c : Dev nD) : W2 m ρ c (Proc.devRef .tc main_v1) = result m c := by
  refine (W2_arr m ρ c 5).trans ((LayerTwo.final (V1 m ρ) c).trans ?_)
  show layer (LayerTwo.adj1 (V1 m ρ) c) (LayerTwo.adj2 (V1 m ρ) c) (LayerTwo.feat (V1 m ρ) c) (LayerTwo.wgt (V1 m ρ) c)
    (LayerTwo.bias (V1 m ρ) c) = layer (a0 m c) (a1 m c) (hidden m c) (a5 m c) (a6 m c)
  rw [entry_adj1 m ρ c, entry_adj2 m ρ c, entry_feat m ρ c, entry_wgt m ρ c, entry_bias m ρ c]

/-- The run of the program with its result named: every weakly fair execution terminates, nothing faulting, with the
    result buffer at `result` and the arguments as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Named.run_named m ρ)

end Cert.KernelIdeal.Whole

end
-- ==== Proof.ReferenceValue.lean ====
/-
  The reference's result as two layers of `Cert.Gcn`.

  The host program computes, for each of the two layers, `maximum (dot_general (dot_general A X) W + broadcast b) 0` for
  each adjacency matrix `A` and adds the two; the second layer's features are the first layer's result. Read at an
  index at the ideal values, each such term is a branch of `Cert.Gcn` (`Gcn.host_branch_apply`: a `dot_general` is a sum
  of products, a broadcast reads its operand, the scalar zero is `0`), so each layer's term is `Gcn.layer` and the
  program's result is `layer A₁ A₂ (layer A₁ A₂ X W₁ b₁) W₂ b₂`.
-/
import proofs.«137351_j70188355551726_1_alg».proof.Proof.Gen.ReferenceIdeal.Run
import proofs.«137351_j70188355551726_1_alg».proof.Proof.GcnLayer

set_option maxRecDepth 16384

noncomputable section

namespace Cert.ReferenceIdeal.Layers

open Cert.ReferenceIdeal Cert.ReferenceIdeal.Gen
open Idealize.ShloMosaic Idealize.ShloMosaic.ValueIdx
open Cert.Gcn Cert.Lib.MatmulCoords

/-- Every `dot_general` of the program is rows times columns. -/
theorem plain_aggregate1 : Plain (a := 8192) (n := 8192) (b := 32) dot_S8192x8192_S8192x32_S8192x32_1_0_0_1_n_n :=
  ⟨rfl, rfl, rfl, rfl, rfl, rfl⟩
theorem plain_linear1 : Plain (a := 8192) (n := 32) (b := 64) dot_S8192x32_S32x64_S8192x64_1_0_0_1_n_n :=
  ⟨rfl, rfl, rfl, rfl, rfl, rfl⟩
theorem plain_aggregate2 : Plain (a := 8192) (n := 8192) (b := 64) dot_S8192x8192_S8192x64_S8192x64_1_0_0_1_n_n :=
  ⟨rfl, rfl, rfl, rfl, rfl, rfl⟩
theorem plain_linear2 : Plain (a := 8192) (n := 64) (b := 16) dot_S8192x64_S64x16_S8192x16_1_0_0_1_n_n :=
  ⟨rfl, rfl, rfl, rfl, rfl, rfl⟩

/-- The first layer as the host program spells it. -/
def hostLayer1 (a0 a1 : FVec Ideal S8192x8192 .f32) (x : FVec Ideal S8192x32 .f32) (w : FVec Ideal S32x64 .f32)
    (b : FVec Ideal S64 .f32) : FVec Ideal S8192x64 .f32 :=
  addf
    (maximumf (addf (Host.dotGeneral dot_S8192x32_S32x64_S8192x64_1_0_0_1_n_n none
          (Host.dotGeneral dot_S8192x8192_S8192x32_S8192x32_1_0_0_1_n_n none a0 x) w)
        (broadcastInDim S8192x64 ![0, 1] bcast_S1x64_S8192x64_0_1 (broadcastInDim S1x64 ![1] bcast_S64_S1x64_1 b)))
      (broadcastInDim S8192x64 ![] bcast_S_S8192x64 (constant (F := Ideal) S_ .f32 0x00000000#32)))
    (maximumf (addf (Host.dotGeneral dot_S8192x32_S32x64_S8192x64_1_0_0_1_n_n none
          (Host.dotGeneral dot_S8192x8192_S8192x32_S8192x32_1_0_0_1_n_n none a1 x) w)
        (broadcastInDim S8192x64 ![0, 1] bcast_S1x64_S8192x64_0_1 (broadcastInDim S1x64 ![1] bcast_S64_S1x64_1 b)))
      (broadcastInDim S8192x64 ![] bcast_S_S8192x64 (constant (F := Ideal) S_ .f32 0x00000000#32)))

/-- The second layer as the host program spells it. -/
def hostLayer2 (a0 a1 : FVec Ideal S8192x8192 .f32) (x : FVec Ideal S8192x64 .f32) (w : FVec Ideal S64x16 .f32)
    (b : FVec Ideal S16 .f32) : FVec Ideal S8192x16 .f32 :=
  addf
    (maximumf (addf (Host.dotGeneral dot_S8192x64_S64x16_S8192x16_1_0_0_1_n_n none
          (Host.dotGeneral dot_S8192x8192_S8192x64_S8192x64_1_0_0_1_n_n none a0 x) w)
        (broadcastInDim S8192x16 ![0, 1] bcast_S1x16_S8192x16_0_1 (broadcastInDim S1x16 ![1] bcast_S16_S1x16_1 b)))
      (broadcastInDim S8192x16 ![] bcast_S_S8192x16 (constant (F := Ideal) S_ .f32 0x00000000#32)))
    (maximumf (addf (Host.dotGeneral dot_S8192x64_S64x16_S8192x16_1_0_0_1_n_n none
          (Host.dotGeneral dot_S8192x8192_S8192x64_S8192x64_1_0_0_1_n_n none a1 x) w)
        (broadcastInDim S8192x16 ![0, 1] bcast_S1x16_S8192x16_0_1 (broadcastInDim S1x16 ![1] bcast_S16_S1x16_1 b)))
      (broadcastInDim S8192x16 ![] bcast_S_S8192x16 (constant (F := Ideal) S_ .f32 0x00000000#32)))

/-- Each is the layer of `Cert.Gcn`: at `(p, q)` the sum of the two adjacency matrices' branches. -/
theorem hostLayer1_eq (a0 a1 : FVec Ideal S8192x8192 .f32) (x : FVec Ideal S8192x32 .f32) (w : FVec Ideal S32x64 .f32)
    (b : FVec Ideal S64 .f32) : hostLayer1 a0 a1 x w b = layer a0 a1 x w b := by
  funext y
  obtain ⟨p, q, rfl⟩ : ∃ (p : Fin 8192) (q : Fin 64), y = ix2 p q := ⟨y 0, y 1, eq_ix2 y⟩
  unfold hostLayer1
  exact congrArg₂ (· + ·)
    (host_branch_apply (R := 8192) (N := 8192) (I := 32) (O := 64) dot_S8192x8192_S8192x32_S8192x32_1_0_0_1_n_n plain_aggregate1
      dot_S8192x32_S32x64_S8192x64_1_0_0_1_n_n plain_linear1 bcast_S64_S1x64_1 bcast_S1x64_S8192x64_0_1 bcast_S_S8192x64 a0 x w b p q)
    (host_branch_apply (R := 8192) (N := 8192) (I := 32) (O := 64) dot_S8192x8192_S8192x32_S8192x32_1_0_0_1_n_n plain_aggregate1
      dot_S8192x32_S32x64_S8192x64_1_0_0_1_n_n plain_linear1 bcast_S64_S1x64_1 bcast_S1x64_S8192x64_0_1 bcast_S_S8192x64 a1 x w b p q)

theorem hostLayer2_eq (a0 a1 : FVec Ideal S8192x8192 .f32) (x : FVec Ideal S8192x64 .f32) (w : FVec Ideal S64x16 .f32)
    (b : FVec Ideal S16 .f32) : hostLayer2 a0 a1 x w b = layer a0 a1 x w b := by
  funext y
  obtain ⟨p, q, rfl⟩ : ∃ (p : Fin 8192) (q : Fin 16), y = ix2 p q := ⟨y 0, y 1, eq_ix2 y⟩
  unfold hostLayer2
  exact congrArg₂ (· + ·)
    (host_branch_apply (R := 8192) (N := 8192) (I := 64) (O := 16) dot_S8192x8192_S8192x64_S8192x64_1_0_0_1_n_n plain_aggregate2
      dot_S8192x64_S64x16_S8192x16_1_0_0_1_n_n plain_linear2 bcast_S16_S1x16_1 bcast_S1x16_S8192x16_0_1 bcast_S_S8192x16 a0 x w b p q)
    (host_branch_apply (R := 8192) (N := 8192) (I := 64) (O := 16) dot_S8192x8192_S8192x64_S8192x64_1_0_0_1_n_n plain_aggregate2
      dot_S8192x64_S64x16_S8192x16_1_0_0_1_n_n plain_linear2 bcast_S16_S1x16_1 bcast_S1x16_S8192x16_0_1 bcast_S_S8192x16 a1 x w b p q)

/-- The program's result: the second layer of the first. -/
theorem result_eq (a0 a1 : FVec Ideal S8192x8192 .f32) (x : FVec Ideal S8192x32 .f32) (w1 : FVec Ideal S32x64 .f32)
    (b1 : FVec Ideal S64 .f32) (w2 : FVec Ideal S64x16 .f32) (b2 : FVec Ideal S16 .f32) :
    hostLayer2 a0 a1 (hostLayer1 a0 a1 x w1 b1) w2 b2 = layer a0 a1 (layer a0 a1 x w1 b1) w2 b2 := by
  rw [hostLayer2_eq, hostLayer1_eq]

end Cert.ReferenceIdeal.Layers

end
-- ==== Proof.lean ====
/-
  A two-layer graph convolution with two adjacency matrices and shared weights, a Pallas kernel per layer, against
  its jnp reference: equal over the extended reals.

  Each layer is `relu ((A₁ X) W + b) + relu ((A₂ X) W + b)`. The kernel runs one region per layer over 64 row blocks of
  128 rows, the features, weights and bias staged whole, with the operands cast to bf16 before each matrix product; the
  reference is four `dot_general`s, broadcasts, `maximum`s and additions per layer on the whole arrays. At the ideal
  values a change of float format is the identity and a matrix product is the plain sum of products, so both programs
  compute, at every `(p, q)`, the same sums in the same association — no algebraic law is needed and the finiteness of
  the inputs is never used: a row block of the layer is the layer of the row block (`Gcn.branch_rows`), and the blocks
  tile the output.

  The pieces: `Cert.Gcn` states the layer index by index and reads both programs' texts as it; `LayerOne` / `LayerTwo`
  show each kernel region leaves its output array at the layer of the arrays it was entered with; `Whole` folds the two
  regions into the result `layer A₁ A₂ (layer A₁ A₂ X W₁ b₁) W₂ b₂`; `Layers` reads the reference's run as the same
  function. The three frames are the generated ones (the reference's is its run with the result dropped); the ideal pass
  rewrote nothing, so the preservation claim is `True`.
-/
import proofs.«137351_j70188355551726_1_alg».proof.Defs
import proofs.«137351_j70188355551726_1_alg».proof.Proof.Gen.Kernel
import proofs.«137351_j70188355551726_1_alg».proof.Proof.Gen.Kernel.Skeleton
import proofs.«137351_j70188355551726_1_alg».proof.Proof.Gen.Kernel.Launch
import proofs.«137351_j70188355551726_1_alg».proof.Proof.Gen.Kernel.Points
import proofs.«137351_j70188355551726_1_alg».proof.Proof.Gen.Kernel.Frame
import proofs.«137351_j70188355551726_1_alg».proof.Proof.Gen.KernelIdeal
import proofs.«137351_j70188355551726_1_alg».proof.Proof.Gen.KernelIdeal.Skeleton
import proofs.«137351_j70188355551726_1_alg».proof.Proof.Gen.KernelIdeal.Launch
import proofs.«137351_j70188355551726_1_alg».proof.Proof.Gen.KernelIdeal.Points
import proofs.«137351_j70188355551726_1_alg».proof.Proof.Gen.KernelIdeal.Frame
import proofs.«137351_j70188355551726_1_alg».proof.Proof.Gen.ReferenceIdeal
import proofs.«137351_j70188355551726_1_alg».proof.Proof.Gen.ReferenceIdeal.Run
import proofs.«137351_j70188355551726_1_alg».proof.Proof.Gen.Pre_finite_inputs
import proofs.«137351_j70188355551726_1_alg».proof.Proof.KernelValue
import proofs.«137351_j70188355551726_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result buffer at
    `layer A₁ A₂ (layer A₁ A₂ X W₁ b₁) W₂ b₂` of the arguments: the kernel by its two regions, the reference by its run
    read as two layers. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact Cert.ReferenceIdeal.Layers.result_eq (Cert.KernelIdeal.Whole.a0 m c) (Cert.KernelIdeal.Whole.a1 m c)
    (Cert.KernelIdeal.Whole.a2 m c) (Cert.KernelIdeal.Whole.a3 m c) (Cert.KernelIdeal.Whole.a4 m c)
    (Cert.KernelIdeal.Whole.a5 m c) (Cert.KernelIdeal.Whole.a6 m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
